-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1000 : Shape := ⟨2, ![512, 1000]⟩
abbrev S1000 : Shape := ⟨1, ![1000]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_arg5 : FVec F S512x1000 .f32) (main_arg6 : FVec F S1000 .f32) (main_v13 : IVec S_ 1) (main_v16 : IVec S512x1000 1) : IVec S_ 1 :=
  let main_c_5 : IVec S_ 1 := constantI S_ 1 1#1
  let main_v17 : IVec S_ 1 := (fun x v => Host.reduce IntOp.andi x v reducesTo_S512x1000_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S512x1000 .f32 := Host.absf main_arg5
  let main_cst_8 : FVec F S_ .f32 := constant S_ .f32 0x7F800000#32
  let main_v25 : FVec F S512x1000 .f32 := broadcastInDim S512x1000 ![] bcast_S_S512x1000 main_cst_8
  let main_v26 : IVec S512x1000 1 := cmpf .olt main_v24 main_v25
  let main_c_9 : IVec S_ 1 := constantI S_ 1 1#1
  let main_v27 : IVec S_ 1 := (fun x v => Host.reduce IntOp.andi x v reducesTo_S512x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S16384x512 .f32) (main_arg1 : FVec F S512x1000 .f32) (main_arg2 : FVec F S1000 .f32) (main_arg3 : FVec F S512x1000 .f32) (main_arg4 : FVec F S1000 .f32) (main_arg5 : FVec F S512x1000 .f32) (main_arg6 : FVec F S1000 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1000 .f32 := Host.absf main_arg1
  let main_cst_0 : FVec F S_ .f32 := constant S_ .f32 0x7F800000#32
  let main_v5 : FVec F S512x1000 .f32 := broadcastInDim S512x1000 ![] bcast_S_S512x1000 main_cst_0
  let main_v6 : IVec S512x1000 1 := cmpf .olt main_v4 main_v5
  let main_c_1 : IVec S_ 1 := constantI S_ 1 1#1
  let main_v7 : IVec S_ 1 := (fun x v => Host.reduce IntOp.andi x v reducesTo_S512x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S512x1000 .f32 := Host.absf main_arg3
  let main_cst_4 : FVec F S_ .f32 := constant S_ .f32 0x7F800000#32
  let main_v15 : FVec F S512x1000 .f32 := broadcastInDim S512x1000 ![] bcast_S_S512x1000 main_cst_4
  let main_v16 : IVec S512x1000 1 := cmpf .olt main_v14 main_v15
  fn_part1 (F := F) main_arg4 main_arg5 main_arg6 main_v13 main_v16
-- ==== Kernel.lean ====
abbrev S16384x512 : Shape := ⟨2, ![16384, 512]⟩
abbrev S512x1000 : Shape := ⟨2, ![512, 1000]⟩
abbrev S1000 : Shape := ⟨1, ![1000]⟩
abbrev S1000x512 : Shape := ⟨2, ![1000, 512]⟩
abbrev S1000x1 : Shape := ⟨2, ![1000, 1]⟩
abbrev S1000x16384 : Shape := ⟨2, ![1000, 16384]⟩
abbrev S16384x1000 : Shape := ⟨2, ![16384, 1000]⟩
abbrev S1024x512 : Shape := ⟨2, ![1024, 512]⟩
abbrev S1000x1024 : Shape := ⟨2, ![1000, 1024]⟩
abbrev S1024 : Shape := ⟨1, ![1024]⟩
abbrev S1x1024 : Shape := ⟨2, ![1, 1024]⟩

abbrev nBuf : Space → Nat
  | .hbm => 19
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S512x1000, .f32⟩
  | .hbm, ⟨2, _⟩ => ⟨S1000, .f32⟩
  | .hbm, ⟨3, _⟩ => ⟨S512x1000, .f32⟩
  | .hbm, ⟨4, _⟩ => ⟨S1000, .f32⟩
  | .hbm, ⟨5, _⟩ => ⟨S512x1000, .f32⟩
  | .hbm, ⟨6, _⟩ => ⟨S1000, .f32⟩
  | .hbm, ⟨7, _⟩ => ⟨S1000x512, .f32⟩
  | .hbm, ⟨8, _⟩ => ⟨S1000x1, .f32⟩
  | .hbm, ⟨9, _⟩ => ⟨S1000x512, .f32⟩
  | .hbm, ⟨10, _⟩ => ⟨S1000x1, .f32⟩
  | .hbm, ⟨11, _⟩ => ⟨S1000x512, .f32⟩
  | .hbm, ⟨12, _⟩ => ⟨S1000x1, .f32⟩
  | .hbm, ⟨13, _⟩ => ⟨S1000x16384, .f32⟩
  | .hbm, ⟨14, _⟩ => ⟨S1000x16384, .f32⟩
  | .hbm, ⟨15, _⟩ => ⟨S1000x16384, .f32⟩
  | .hbm, ⟨16, _⟩ => ⟨S16384x1000, .f32⟩
  | .hbm, ⟨17, _⟩ => ⟨S16384x1000, .f32⟩
  | .hbm, ⟨18, _⟩ => ⟨S16384x1000, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S1000x1, .f32⟩
  | .local _ .vmem, ⟨4, _⟩ => ⟨S1000x512, .f32⟩
  | .local _ .vmem, ⟨5, _⟩ => ⟨S1000x1, .f32⟩
  | .local _ .vmem, ⟨6, _⟩ => ⟨S1000x512, .f32⟩
  | .local _ .vmem, ⟨7, _⟩ => ⟨S1000x1, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1000x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6_0 : Ref sig .tc := ⟨.hbm, 13, rfl⟩
abbrev main_call0_v6_1 : Ref sig .tc := ⟨.hbm, 14, rfl⟩
abbrev main_call0_v6_2 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S512x1000_S1000x512_1_0 : S512x1000.Transposes [1, 0] S1000x512
  shapeCasts_S1000_S1000x1 : S1000.ShapeCasts S1000x1
  transposes_S1000x16384_S16384x1000_1_0 : S1000x16384.Transposes [1, 0] S16384x1000
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1024 : S1000x1.Broadcasts S1000x1024
  reduces_S1000x1024_S1024 : S1000x1024.Reduces [0] S1024
  shapeCasts_S1024_S1x1024 : S1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  dot_S1000x512_S1024x512_S1000x1024_1_1_0_0_n_n_wf : DotDims.WF S1000x512 S1024x512 S1000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S1000x1.size a
  hwx0_2 : ∀ i : grid0.Coords, EltTy.bits .f32 = 32 ∨ (Rect.block (s := S1000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S1000x512.size a
  hwx0_3 : ∀ i : grid0.Coords, EltTy.bits .f32 = 32 ∨ (Rect.block (s := S1000x512) S1000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S1000x1.size a
  hwx0_4 : ∀ i : grid0.Coords, EltTy.bits .f32 = 32 ∨ (Rect.block (s := S1000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S1000x512.size a
  hwx0_5 : ∀ i : grid0.Coords, EltTy.bits .f32 = 32 ∨ (Rect.block (s := S1000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000x1.size a ≤ S1000x1.size a
  hwx0_6 : ∀ i : grid0.Coords, EltTy.bits .f32 = 32 ∨ (Rect.block (s := S1000x1) S1000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x1024.size a ≤ S1000x16384.size a
  hwx0_7 : ∀ i : grid0.Coords, EltTy.bits .f32 = 32 ∨ (Rect.block (s := S1000x16384) S1000x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x1024.size a ≤ S1000x16384.size a
  hwx0_8 : ∀ i : grid0.Coords, EltTy.bits .f32 = 32 ∨ (Rect.block (s := S1000x16384) S1000x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1024.size a ≤ S1000x16384.size a
  hwx0_9 : ∀ i : grid0.Coords, EltTy.bits .f32 = 32 ∨ (Rect.block (s := S1000x16384) S1000x1024.size (cc0_transform_9 i) (hinb0_9 i)).WholeWords (EltTy.packing .f32)

variable [Facts₀]

def dot_S1000x512_S1024x512_S1000x1024_1_1_0_0_n_n : DotDims S1000x512 S1024x512 S1000x1024 where
  lhsContracting := [1]
  rhsContracting := [1]
  lhsNonContracting := [0]
  rhsNonContracting := [0]
  lhsBatch := []
  rhsBatch := []
  wf := dot_S1000x512_S1024x512_S1000x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1000x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1000x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1000x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1000x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6_0) S1000x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6_1) S1000x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6_2) S1000x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1000 : Shape := ⟨2, ![512, 1000]⟩
abbrev S1000 : Shape := ⟨1, ![1000]⟩
abbrev S16384x1000 : Shape := ⟨2, ![16384, 1000]⟩
abbrev S1x1000 : Shape := ⟨2, ![1, 1000]⟩
abbrev S_ : Shape := ⟨0, ![]⟩
abbrev S16384 : Shape := ⟨1, ![16384]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1000, .f32⟩
  | .hbm, ⟨2, _⟩ => ⟨S1000, .f32⟩
  | .hbm, ⟨3, _⟩ => ⟨S512x1000, .f32⟩
  | .hbm, ⟨4, _⟩ => ⟨S1000, .f32⟩
  | .hbm, ⟨5, _⟩ => ⟨S512x1000, .f32⟩
  | .hbm, ⟨6, _⟩ => ⟨S1000, .f32⟩
  | .hbm, ⟨7, _⟩ => ⟨S16384x1000, .f32⟩
  | .hbm, ⟨8, _⟩ => ⟨S1x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1000, .f32⟩
  | .hbm, ⟨24, _⟩ => ⟨S16384x1000, .f32⟩
  | .hbm, ⟨25, _⟩ => ⟨S16384x1000, .f32⟩
  | .hbm, ⟨26, _⟩ => ⟨S1x1000, .f32⟩
  | .hbm, ⟨27, _⟩ => ⟨S16384x1000, .f32⟩
  | .hbm, ⟨28, _⟩ => ⟨S16384x1000, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x1000, .f32⟩
  | .hbm, ⟨36, _⟩ => ⟨S16384x1000, .f32⟩
  | .hbm, ⟨37, _⟩ => ⟨S16384x1000, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1000, .f32⟩
  | .hbm, ⟨42, _⟩ => ⟨S16384x1000, .f32⟩
  | .hbm, ⟨43, _⟩ => ⟨S16384x1000, .f32⟩
  | .hbm, ⟨44, _⟩ => ⟨S1x1000, .f32⟩
  | .hbm, ⟨45, _⟩ => ⟨S16384x1000, .f32⟩
  | .hbm, ⟨46, _⟩ => ⟨S16384x1000, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x1000, .f32⟩
  | .hbm, ⟨54, _⟩ => ⟨S16384x1000, .f32⟩
  | .hbm, ⟨55, _⟩ => ⟨S16384x1000, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1000, .f32⟩
  | .hbm, ⟨60, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  dot_S16384x512_S512x1000_S16384x1000_1_0_0_1_n_n_wf : DotDims.WF S16384x512 S512x1000 S16384x1000 [1] [0] [0] [1] [] []

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf

class Facts : Prop extends Facts₀ where

variable [Facts]
-- ==== Proof.Softmax.lean ====
/-
  The mathematics of one classifier head, over the extended reals.

  A head maps a feature row x (512 entries), a weight matrix W (512 × 1000) and a bias b (1000 entries) to the
  softmax of the logits  l j = (∑ₖ x k · W k j) + b j :

      softmax l j = exp (l j − M) / ∑ⱼ' exp (l j' − M),      M = max over j' of l j', taken from −∞.

  This file states that function once (`softmaxAt`, `head`), for rows of any length, and proves the two facts about
  −∞ and sums that both programs' readings need: −∞ is neutral for `max`, and a maximum taken from −∞ and then
  compared with −∞ once more is unchanged.
-/
import Idealize.ShloMosaic.PureOps.Ideal.Laws
import Idealize.ShloMosaic.Lib.ValueIdx

noncomputable section

namespace Cert.SemHead

open Idealize.ShloMosaic Idealize.ShloMosaic.ValueIdx

/-- The f32 word of −∞, read as an extended real. -/
abbrev negInf : EReal := Ideal.ofBits .f32 0xFF800000#32

/-- −∞ is the bottom of the extended reals. -/
theorem negInf_eq_bot : negInf = ⊥ := by simp [negInf, Ideal.ofBits, Ideal.ieee]

/-- −∞ is neutral for the maximum. -/
theorem max_negInf (y : EReal) : max negInf y = y := by
  rw [negInf_eq_bot]; exact max_eq_right bot_le

/-- The maximum of a row's entries, folded from −∞ (in any order: `max` commutes and associates). -/
def rowMax {n : Nat} (l : Fin n → EReal) : EReal := (Finset.univ : Finset (Fin n)).fold max negInf l

/-- The softmax of the row `l` at entry `j`: the exponential of the entry less the row's maximum, over the sum of
    those exponentials along the row. -/
def softmaxAt {n : Nat} (l : Fin n → EReal) (j : Fin n) : EReal :=
  Ideal.div (Ideal.exp (l j - rowMax l)) (∑ j' : Fin n, Ideal.exp (l j' - rowMax l))

/-- The logit of sample `r` for cluster `j`: the feature row against the weight column, plus the bias. -/
def logit (x : (⟨2, ![16384, 512]⟩ : Shape).Idx → EReal) (w : (⟨2, ![512, 1000]⟩ : Shape).Idx → EReal)
    (b : (⟨1, ![1000]⟩ : Shape).Idx → EReal) (r : Fin 16384) (j : Fin 1000) : EReal :=
  (∑ k : Fin 512, x (ix2 r k) * w (ix2 k j)) + b (ix1 j)

/-- One head over the whole batch: entry (r, j) of the result is the softmax, along the clusters, of sample `r`'s
    logits. -/
def head (x : (⟨2, ![16384, 512]⟩ : Shape).Idx → EReal) (w : (⟨2, ![512, 1000]⟩ : Shape).Idx → EReal)
    (b : (⟨1, ![1000]⟩ : Shape).Idx → EReal) : (⟨2, ![16384, 1000]⟩ : Shape).Idx → EReal :=
  fun i => softmaxAt (logit x w b (i 0)) (i 1)

theorem head_ix2 (x : (⟨2, ![16384, 512]⟩ : Shape).Idx → EReal) (w : (⟨2, ![512, 1000]⟩ : Shape).Idx → EReal)
    (b : (⟨1, ![1000]⟩ : Shape).Idx → EReal) (r : Fin 16384) (j : Fin 1000) :
    head x w b (ix2 r j) = softmaxAt (logit x w b r) j := rfl

end Cert.SemHead

end
-- ==== Proof.RefHead.lean ====
/-
  The reference computes `head`.

  Its first head is eighteen host operations: the product of the features with the weights, the bias broadcast over
  the samples, the row maximum (a reduce from −∞, compared once more with a broadcast −∞), the exponentials of the
  logits less that maximum, their row sum from 0, and the quotient. Read entry by entry: the logits (`logits_at`),
  the maximum (`rowmax_at`), the exponentials (`exps_at`), their sum (`sumexp_at`), and the quotient, which is
  `softmaxAt` of the sample's logits (`ref_head0`). The second and third heads are the same eighteen operations
  on the other weights and biases (`ref_head1`, `ref_head2`).
-/
import proofs.«131366_g8564164788422_cont_9to1_m_151_18_alg».proof.Proof.Gen.ReferenceIdeal.Read
import proofs.«131366_g8564164788422_cont_9to1_m_151_18_alg».proof.Proof.Softmax
import Idealize.ShloMosaic.PureOps.Ideal.Laws
import Idealize.ShloMosaic.PureOps.Reduce

noncomputable section

namespace Cert.ReferenceIdeal.HeadValue

open Cert.ReferenceIdeal Cert.ReferenceIdeal.Gen Cert.ReferenceIdeal.Read Cert.SemHead
open Idealize.ShloMosaic Idealize.ShloMosaic.ValueIdx

variable (x0 : (⟨S16384x512, .f32⟩ : BufTy).Contents (Elt Ideal)) (x1 : (⟨S512x1000, .f32⟩ : BufTy).Contents (Elt Ideal))
  (x2 : (⟨S1000, .f32⟩ : BufTy).Contents (Elt Ideal))

/-- The logits: entry (r, j) is the feature row r against the weight column j, plus bias j. -/
theorem logits_at (r : Fin 16384) (j : Fin 1000) :
    val_main_v3 (F := Ideal) x0 x1 x2 (ix2 r j) = logit x0 x1 x2 r j := by
  have el : ∀ k : Fin 512, lidx_main_v0 (ix2 r j) k = ix2 r k := fun k => funext fun a => Fin.ext (by
    match a with | ⟨0, _⟩ => rfl | ⟨1, _⟩ => rfl)
  have er : ∀ k : Fin 512, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  rw [val_main_v3_apply, val_main_v0_apply, val_main_v2_apply, val_main_v1_apply]
  simp only [el, er, eb, Ideal.addf_def]
  rfl

/-- The index of sample `r`'s row with the cluster coordinate `k` put back is (r, k). -/
theorem lift_row (h : S16384x1000.Reduces [1] S16384) (r : Fin 16384) (k : Fin (S16384x1000.size 1)) :
    h.lift (ix1 r) k = ix2 r (⟨k.val, k.isLt⟩ : Fin 1000) := by
  funext c; apply Fin.ext
  fin_cases c <;> rfl

/-- The maximum the reference subtracts: at sample r, the maximum of its logits from −∞. -/
theorem rowmax_at (r : Fin 16384) :
    val_main_v6 (F := Ideal) x0 x1 x2 (ix1 r) = rowMax (logit x0 x1 x2 r) := by
  rw [val_main_v6_apply, val_main_v5_apply, val_main_cst_0_apply]
  unfold val_main_v4
  rw [Host.reduce_eq_fold_single FloatOps.maximumf _ _ reducesTo_S16384x1000_S16384_d1 (by decide) h_S_]
  have hf : (val_main_v3 (F := Ideal) x0 x1 x2 ∘ Shape.Reduces.lift (by decide : S16384x1000.Reduces [1] S16384) (ix1 r))
      = logit x0 x1 x2 r := funext fun k => by
    show val_main_v3 (F := Ideal) x0 x1 x2 (Shape.Reduces.lift _ (ix1 r) k) = _
    rw [lift_row]
    exact logits_at x0 x1 x2 r _
  rw [hf]
  exact max_negInf _

/-- The exponentials: entry (r, j) is exp of the logit less the sample's maximum. -/
theorem exps_at (r : Fin 16384) (j : Fin 1000) :
    val_main_v10 (F := Ideal) x0 x1 x2 (ix2 r j)
      = Ideal.exp (logit x0 x1 x2 r j - rowMax (logit x0 x1 x2 r)) := by
  have em : idx_main_v7 (idx_main_v8 (ix2 r j)) = ix1 r := funext fun a => Fin.ext (by
    match a with | ⟨0, _⟩ => rfl)
  rw [val_main_v10_apply, val_main_v9_apply, val_main_v8_apply, val_main_v7_apply, em, logits_at, rowmax_at]
  rfl

/-- Their row sum: at sample r, the sum over the clusters of those exponentials. -/
theorem sumexp_at (r : Fin 16384) :
    val_main_v11 (F := Ideal) x0 x1 x2 (ix1 r)
      = ∑ j : Fin 1000, Ideal.exp (logit x0 x1 x2 r j - rowMax (logit x0 x1 x2 r)) := by
  rw [val_main_v11_apply, val_main_cst_1_apply]
  have ei : ∀ k : Fin 1000, idx_main_v11 (ix1 r) k = ix2 r k := fun k => funext fun a => Fin.ext (by
    match a with | ⟨0, _⟩ => rfl | ⟨1, _⟩ => rfl)
  simp only [ei, exps_at]
  show Ideal.ofBits .f32 0x00000000#32 + _ = _
  rw [Ideal.ofBits_zero_f32, zero_add]

/-- The first head of the reference is `head` of the features, the first weights and the first bias. -/
theorem ref_head0 : val_main_v14 (F := Ideal) x0 x1 x2 = head x0 x1 x2 := by
  funext i
  obtain ⟨r, j, rfl⟩ : ∃ (r : Fin 16384) (j : Fin 1000), i = ix2 r j := ⟨i 0, i 1, eq_ix2 i⟩
  have es : idx_main_v12 (idx_main_v13 (ix2 r j)) = ix1 r := funext fun a => Fin.ext (by
    match a with | ⟨0, _⟩ => rfl)
  rw [val_main_v14_apply, val_main_v13_apply, val_main_v12_apply, es, exps_at, sumexp_at, head_ix2]
  rfl

/-- The second head is the same operations on the second weights and bias. -/
theorem ref_head1 : val_main_v29 (F := Ideal) x0 x1 x2 = head x0 x1 x2 :=
  (show val_main_v29 (F := Ideal) x0 x1 x2 = val_main_v14 (F := Ideal) x0 x1 x2 from rfl).trans (ref_head0 x0 x1 x2)

/-- The third head is the same operations on the third weights and bias. -/
theorem ref_head2 : val_main_v44 (F := Ideal) x0 x1 x2 = head x0 x1 x2 :=
  (show val_main_v44 (F := Ideal) x0 x1 x2 = val_main_v14 (F := Ideal) x0 x1 x2 from rfl).trans (ref_head0 x0 x1 x2)

end Cert.ReferenceIdeal.HeadValue

end
-- ==== Proof.ColumnOps.lean ====
/-
  A block of logits laid out clusters × samples (A rows, B columns): what the column-wise reductions and the
  broadcasts around them are, entry by entry, over the extended reals.

  * the maximum down a column, taken from −∞, cast to one row and broadcast back over the rows, is at (p, q) the
    maximum of column q (`colMax_bcast_at`);
  * the sum down a column, likewise cast and broadcast, is at (p, q) the sum of column q (`colSum_bcast_at`);
  * a column vector [A, 1] broadcast along the rows is at (p, q) its entry p (`broadcastTo_a1_ab_apply`);
  * a vector [A] recast as a column [A, 1] is at (p, 0) its entry p (`shapeCast_a_a1_apply`).
-/
import Idealize.ShloMosaic.PureOps.Ideal.Laws
import Idealize.ShloMosaic.Lib.ValueIdx
import Idealize.ShloMosaic.Lib.ValueLayout
import Idealize.ShloMosaic.Lib.Pipeline.Value
import proofs.«131366_g8564164788422_cont_9to1_m_151_18_alg».proof.Proof.Softmax

noncomputable section

namespace Cert.SemHead

open Idealize.ShloMosaic Idealize.ShloMosaic.ValueIdx

variable {A B : Nat}

/-- The index of column `q` with the row coordinate `k` put back is (k, q). -/
theorem lift_col (h : (⟨2, ![A, B]⟩ : Shape).Reduces [0] (⟨1, ![B]⟩ : Shape)) (q : Fin B)
    (k : Fin ((⟨2, ![A, B]⟩ : Shape).size 0)) : h.lift (ix1 q) k = ix2 (⟨k.val, k.isLt⟩ : Fin A) q := by
  funext c; apply Fin.ext
  fin_cases c <;> rfl

/-- A column vector broadcast along the rows reads, at (p, q), its entry p. -/
theorem broadcastTo_a1_ab_apply {α : Type} (v : (⟨2, ![A, 1]⟩ : Shape).Idx → α)
    (h : (⟨2, ![A, 1]⟩ : Shape).Broadcasts ⟨2, ![A, B]⟩) (p : Fin A) (q : Fin B) :
    broadcastTo ⟨2, ![A, B]⟩ v h (ix2 p q) = v (ix2 p (0 : Fin 1)) := by
  refine broadcastTo_apply v h (ix2 p q) (ix2 p (0 : Fin 1)) fun ax => ?_
  match ax with
  | ⟨0, _⟩ =>
    show p.val = if A = 1 then 0 else p.val
    split
    · have := p.isLt; omega
    · rfl
  | ⟨1, _⟩ => rfl

/-- A vector recast as a column reads, at (p, 0), its entry p: both have row-major position p. -/
theorem shapeCast_a_a1_apply {α : Type} (x : (⟨1, ![A]⟩ : Shape).Idx → α) (h : (⟨1, ![A]⟩ : Shape).ShapeCasts ⟨2, ![A, 1]⟩)
    (p : Fin A) : shapeCast ⟨2, ![A, 1]⟩ x h (ix2 p (0 : Fin 1)) = x (ix1 p) :=
  shapeCast_apply x h _ _ (by
    rw [Shape.rowMajor_val_two, Shape.rowMajor_val_one]
    show p.val = p.val * 1 + 0
    omega)

/-- The column maxima of a block, from −∞, as one row broadcast back over the block: at (p, q) the maximum of column q. -/
theorem colMax_bcast_at (y : FVec Ideal (⟨2, ![A, B]⟩ : Shape) .f32)
    (hr : (⟨2, ![A, B]⟩ : Shape).Reduces [0] (⟨1, ![B]⟩ : Shape)) (hφ : FKind.Formats .f32)
    (hacc : (0xFF800000#32 : BitVec FTy.f32.bits) = FKind.maximumf.neutral .f32 hφ)
    (hc : (⟨1, ![B]⟩ : Shape).ShapeCasts ⟨2, ![1, B]⟩) (hb : (⟨2, ![1, B]⟩ : Shape).Broadcasts ⟨2, ![A, B]⟩)
    (p : Fin A) (q : Fin B) :
    broadcastTo ⟨2, ![A, B]⟩ (shapeCast ⟨2, ![1, B]⟩ (multiReduction .maximumf [0] ⟨1, ![B]⟩ y 0xFF800000#32 hr hφ hacc) hc) hb (ix2 p q)
      = rowMax (fun k : Fin A => y (ix2 k q)) := by
  rw [broadcastTo_1b_ab_apply, shapeCast_a_1a_apply, Ideal.multiReduction_maximumf_single]
  have hf : (y ∘ hr.lift (ix1 q)) = fun k : Fin A => y (ix2 k q) := funext fun k => congrArg y (lift_col hr q k)
  exact congrArg (fun f => Finset.fold max negInf f (Finset.univ : Finset (Fin A))) hf

/-- The column sums of a block as one row broadcast back over the block: at (p, q) the sum of column q. -/
theorem colSum_bcast_at (y : FVec Ideal (⟨2, ![A, B]⟩ : Shape) .f32)
    (hr : (⟨2, ![A, B]⟩ : Shape).Reduces [0] (⟨1, ![B]⟩ : Shape)) (hφ : FKind.Formats .f32)
    (hacc : (0x00000000#32 : BitVec FTy.f32.bits) = FKind.add.neutral .f32 hφ)
    (hc : (⟨1, ![B]⟩ : Shape).ShapeCasts ⟨2, ![1, B]⟩) (hb : (⟨2, ![1, B]⟩ : Shape).Broadcasts ⟨2, ![A, B]⟩)
    (p : Fin A) (q : Fin B) :
    broadcastTo ⟨2, ![A, B]⟩ (shapeCast ⟨2, ![1, B]⟩ (multiReduction .add [0] ⟨1, ![B]⟩ y 0x00000000#32 hr hφ hacc) hc) hb (ix2 p q)
      = ∑ k : Fin A, y (ix2 k q) := by
  rw [broadcastTo_1b_ab_apply, shapeCast_a_1a_apply, Ideal.multiReduction_add_single]
  exact Finset.sum_congr rfl fun k _ => congrArg y (lift_col hr q k)

end Cert.SemHead

end
-- ==== Proof.KernelHead.lean ====
/-
  What the kernel's body stores for one head, entry by entry.

  The body works on a block of 1024 samples, transposed: for a head with weights Wᵀ (1000 × 512) and bias b
  (1000 × 1) it forms the logits  Lᵀ[j, q] = ∑ₖ Wᵀ[j, k] · x[q, k] + b[j]  (a matrix product contracting the second
  axis of both operands, into a zero accumulator), takes the maximum and the sum of exponentials down each column q,
  and stores  exp (Lᵀ[j, q] − max) / sum. So entry (j, q) of the stored block is the softmax, along the clusters, of
  sample q's logits (`head_block_at`). The three stored values are this one function of the features block and of
  the head's own weights and bias (`pay3_eq`, `pay4_eq`, `pay1_eq`).
-/
import proofs.«131366_g8564164788422_cont_9to1_m_151_18_alg».proof.Proof.Gen.KernelIdeal.Skeleton
import proofs.«131366_g8564164788422_cont_9to1_m_151_18_alg».proof.Proof.Softmax
import proofs.«131366_g8564164788422_cont_9to1_m_151_18_alg».proof.Proof.ColumnOps
import Idealize.ShloMosaic.PureOps.Ideal.Laws
import Idealize.ShloMosaic.Lib.ValueIdx
import Idealize.ShloMosaic.Lib.Pipeline.Value

noncomputable section

namespace Cert.KernelIdeal.HeadValue

open Cert.KernelIdeal Cert.KernelIdeal.Gen Cert.SemHead
open Idealize.ShloMosaic Idealize.ShloMosaic.ValueIdx

/-! ## The matrix product at an entry -/

theorem lhs_mm_0 (i : S1000x1024.Idx) (q : dot_S1000x512_S1024x512_S1000x1024_1_1_0_0_n_n.contr.Idx) :
    (dot_S1000x512_S1024x512_S1000x1024_1_1_0_0_n_n.lhsIdx i q 0).val = (i 0).val := by
  unfold DotDims.lhsIdx
  rw [dif_neg (show ¬(0 : Fin S1000x512.rank) ∈ dot_S1000x512_S1024x512_S1000x1024_1_1_0_0_n_n.lhsBatch by decide), dif_pos (show (0 : Fin S1000x512.rank) ∈ dot_S1000x512_S1024x512_S1000x1024_1_1_0_0_n_n.lhsNonContracting by decide)]
  rfl
theorem lhs_mm_1 (i : S1000x1024.Idx) (q : dot_S1000x512_S1024x512_S1000x1024_1_1_0_0_n_n.contr.Idx) :
    (dot_S1000x512_S1024x512_S1000x1024_1_1_0_0_n_n.lhsIdx i q 1).val = (q ⟨0, by decide⟩).val :=
  dot_S1000x512_S1024x512_S1000x1024_1_1_0_0_n_n.lhsIdx_val_of_single rfl i q
theorem rhs_mm_0 (i : S1000x1024.Idx) (q : dot_S1000x512_S1024x512_S1000x1024_1_1_0_0_n_n.contr.Idx) :
    (dot_S1000x512_S1024x512_S1000x1024_1_1_0_0_n_n.rhsIdx i q 0).val = (i 1).val := by
  unfold DotDims.rhsIdx
  rw [dif_neg (show ¬(0 : Fin S1024x512.rank) ∈ dot_S1000x512_S1024x512_S1000x1024_1_1_0_0_n_n.rhsBatch by decide), dif_pos (show (0 : Fin S1024x512.rank) ∈ dot_S1000x512_S1024x512_S1000x1024_1_1_0_0_n_n.rhsNonContracting by decide)]
  rfl
theorem rhs_mm_1 (i : S1000x1024.Idx) (q : dot_S1000x512_S1024x512_S1000x1024_1_1_0_0_n_n.contr.Idx) :
    (dot_S1000x512_S1024x512_S1000x1024_1_1_0_0_n_n.rhsIdx i q 1).val = (q ⟨0, by decide⟩).val :=
  dot_S1000x512_S1024x512_S1000x1024_1_1_0_0_n_n.rhsIdx_val_of_single rfl i q

/-- Entry (p, q) of the product of a [1000, 512] and a [1024, 512] operand contracted on their second axes, into zero:
    the sum over k of left (p, k) times right (q, k). -/
theorem matmul_at {φ₁ φ₂ : FTy} (l : FVec Ideal S1000x512 φ₁) (r : FVec Ideal S1024x512 φ₂) (p : Fin 1000) (q : Fin 1024) :
    matmul dot_S1000x512_S1024x512_S1000x1024_1_1_0_0_n_n none l r (constant S1000x1024 .f32 0x00000000#32) (ix2 p q)
      = ∑ k : Fin 512, l (ix2 p k) * r (ix2 q k) := by
  simp only [matmul]
  rw [Ideal.matmul_constant_zero_apply, ← Equiv.sum_comp (contrEquiv1 dot_S1000x512_S1024x512_S1000x1024_1_1_0_0_n_n 512 rfl rfl).symm]
  refine Finset.sum_congr rfl fun k _ => ?_
  have hk := contrEquiv1_symm_val dot_S1000x512_S1024x512_S1000x1024_1_1_0_0_n_n 512 rfl rfl k
  have el : dot_S1000x512_S1024x512_S1000x1024_1_1_0_0_n_n.lhsIdx (ix2 p q) ((contrEquiv1 dot_S1000x512_S1024x512_S1000x1024_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S1000x512_S1024x512_S1000x1024_1_1_0_0_n_n.rhsIdx (ix2 p q) ((contrEquiv1 dot_S1000x512_S1024x512_S1000x1024_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-! ## The logits of a block -/

/-- The block of logits, clusters × samples: the weights against the features block, plus the bias column. -/
def logitsT (v1 : FVec Ideal S1024x512 .bf16) (w : Vec Ideal S1000x512 .f32) (b : Vec Ideal S1000x1 .f32) : FVec Ideal S1000x1024 .f32 :=
  addf (matmul dot_S1000x512_S1024x512_S1000x1024_1_1_0_0_n_n none (truncf .bf16 (shapeCast S1000x512 w shapeCasts_S1000x512_S1000x512) bitsLt_bf16_f32) v1 (constant S1000x1024 .f32 0x00000000#32))
    (broadcastTo S1000x1024 (shapeCast S1000x1 b shapeCasts_S1000x1_S1000x1) broadcasts_S1000x1_S1000x1024)

theorem logitsT_at (v1 : FVec Ideal S1024x512 .bf16) (w : Vec Ideal S1000x512 .f32) (b : Vec Ideal S1000x1 .f32) (j : Fin 1000) (q : Fin 1024) :
    logitsT v1 w b (ix2 j q) = (∑ k : Fin 512, w (ix2 j k) * v1 (ix2 q k)) + b (ix2 j (0 : Fin 1)) := by
  unfold logitsT
  rw [addf_apply, matmul_at, broadcastTo_a1_ab_apply, shapeCast_self, shapeCast_self]
  rfl

/-! ## The softmax down the columns of a block -/

/-- The exponentials of a block less its column maxima. -/
def expShift (L : FVec Ideal S1000x1024 .f32) : FVec Ideal S1000x1024 .f32 :=
  exp (subf L (broadcastTo S1000x1024 (shapeCast S1x1024 (multiReduction .maximumf [0] S1024 L 0xFF800000#32 reduces_S1000x1024_S1024 (.inl rfl) rfl) shapeCasts_S1024_S1x1024) broadcasts_S1x1024_S1000x1024))

theorem expShift_at (L : FVec Ideal S1000x1024 .f32) (p : Fin 1000) (q : Fin 1024) :
    expShift L (ix2 p q) = Ideal.exp (L (ix2 p q) - rowMax (fun k : Fin 1000 => L (ix2 k q))) := by
  unfold expShift
  show Ideal.exp (L (ix2 p q) - _) = _
  exact congrArg (fun z => Ideal.exp (L (ix2 p q) - z)) (colMax_bcast_at L _ _ _ _ _ p q)

/-- Those exponentials over their column sums. -/
def softT (L : FVec Ideal S1000x1024 .f32) : FVec Ideal S1000x1024 .f32 :=
  divf (expShift L) (broadcastTo S1000x1024 (shapeCast S1x1024 (multiReduction .add [0] S1024 (expShift L) 0x00000000#32 reduces_S1000x1024_S1024 (.inl rfl) rfl) shapeCasts_S1024_S1x1024) broadcasts_S1x1024_S1000x1024)

/-- Entry (p, q): the softmax of column q at p. -/
theorem softT_at (L : FVec Ideal S1000x1024 .f32) (p : Fin 1000) (q : Fin 1024) :
    softT L (ix2 p q) = softmaxAt (fun k : Fin 1000 => L (ix2 k q)) p := by
  unfold softT
  rw [divf_apply]
  refine (congrArg (fun z => Ideal.div (expShift L (ix2 p q)) z) (colSum_bcast_at (expShift L) _ _ _ _ _ p q)).trans ?_
  unfold softmaxAt
  simp only [expShift_at]

/-- Entry (j, q) of what the body stores for a head: the softmax, along the clusters, of sample q's logits. -/
theorem head_block_at (v1 : FVec Ideal S1024x512 .bf16) (w : Vec Ideal S1000x512 .f32) (b : Vec Ideal S1000x1 .f32) (j : Fin 1000) (q : Fin 1024) :
    softT (logitsT v1 w b) (ix2 j q)
      = softmaxAt (fun j' : Fin 1000 => (∑ k : Fin 512, w (ix2 j' k) * v1 (ix2 q k)) + b (ix2 j' (0 : Fin 1))) j := by
  rw [softT_at]
  simp only [logitsT_at]

/-! ## The three stored values are that function -/

theorem pay1_eq (v1 : FVec Ideal S1024x512 .bf16) (w : Vec Ideal S1000x512 .f32) (b : Vec Ideal S1000x1 .f32) :
    k0_pay1 (F := Ideal) v1 w b = softT (logitsT v1 w b) := rfl
theorem pay3_eq (v0 : Vec Ideal S1024x512 .f32) (w : Vec Ideal S1000x512 .f32) (b : Vec Ideal S1000x1 .f32) :
    k0_pay3 (F := Ideal) v0 w b = softT (logitsT (k0_pay2 v0) w b) := rfl
theorem pay4_eq (v0 : Vec Ideal S1024x512 .f32) (w : Vec Ideal S1000x512 .f32) (b : Vec Ideal S1000x1 .f32) :
    k0_pay4 (F := Ideal) v0 w b = softT (logitsT (k0_pay2 v0) w b) := rfl
/-- The features block narrowed to the matrix unit's input format is, over the extended reals, the block itself. -/
theorem pay2_at (v0 : Vec Ideal S1024x512 .f32) (i : S1024x512.Idx) : k0_pay2 (F := Ideal) v0 i = v0 i := rfl

/-! ## A stored block against the head of the whole batch -/

/-- If the features block's row q is row r of the features, the block's weights are the weights transposed and its bias
    column is the bias, then entry (j, q) of what the body stores is entry (r, j) of the head over the whole batch: the
    two logits are the same sum of products, the factors of each product in the other order. -/
theorem head_block_eq_head (x : S16384x512.Idx → EReal) (w : S512x1000.Idx → EReal) (b : S1000.Idx → EReal)
    (xb : Vec Ideal S1024x512 .f32) (wT : Vec Ideal S1000x512 .f32) (bc : Vec Ideal S1000x1 .f32) (r : Fin 16384) (q : Fin 1024)
    (hx : ∀ k : Fin 512, xb (ix2 q k) = x (ix2 r k)) (hw : ∀ (j : Fin 1000) (k : Fin 512), wT (ix2 j k) = w (ix2 k j))
    (hb : ∀ j : Fin 1000, bc (ix2 j (0 : Fin 1)) = b (ix1 j)) (j : Fin 1000) :
    softT (logitsT (k0_pay2 xb) wT bc) (ix2 j q) = head x w b (ix2 r j) := by
  rw [head_block_at, head_ix2]
  refine congrArg (fun l => softmaxAt l j) (funext fun j' => ?_)
  unfold logit
  rw [hb]
  refine congrArg (· + b (ix1 j')) (Finset.sum_congr rfl fun k _ => ?_)
  rw [pay2_at, hx, hw, mul_comm]

end Cert.KernelIdeal.HeadValue

end
-- ==== Proof.Blocks.lean ====
/-
  The grid and the blocks: what is common to the three heads.

  The grid has 16 points; point t works on samples t · 1024 … t · 1024 + 1023. The features window moves with the
  point along the samples; each head's weights (already transposed by the host, 1000 × 512) and bias (recast by the host
  as a column, 1000 × 1) are whole at every point; each head's output array is clusters × samples (1000 × 16384), and
  point t writes back its columns t · 1024 … t · 1024 + 1023 (`idx_facts`). Row q of the features block at point t is
  row t · 1024 + q of the features (`x_blk`). `headT` is a head's result with its axes exchanged, which is what an
  output array ends holding.
-/
import proofs.«131366_g8564164788422_cont_9to1_m_151_18_alg».proof.Proof.Gen.KernelIdeal.Frame
import proofs.«131366_g8564164788422_cont_9to1_m_151_18_alg».proof.Proof.Softmax
import proofs.«131366_g8564164788422_cont_9to1_m_151_18_alg».proof.Proof.KernelHead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HeadValue

open Cert.KernelIdeal Cert.KernelIdeal.Gen Cert.SemHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Where each window's block sits at point t: the features' and the outputs' move with t along the samples, the
    weights' and the biases' stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 2) = 0 ∧ win0_9.index t (1 : Fin 2) = t.val :=
  (by decide +kernel : ∀ t : Fin grid0.N, _)

theorem t_lt (t : Fin cfg0.N) : t.val < 16 := by
  have h : t.val < grid0.N := t.isLt
  rw [N_0] at h
  exact h

/-- The sample that column q of point t's block holds. -/
abbrev sampleOf (t : Fin cfg0.N) (q : Fin 1024) : Fin 16384 :=
  ⟨t.val * 1024 + q.val, by have := t_lt t; have := q.isLt; omega⟩

/-- A head's result with its two axes exchanged: clusters × samples. -/
def headT (x : S16384x512.Idx → EReal) (w : S512x1000.Idx → EReal) (b : S1000.Idx → EReal) : S1000x16384.Idx → EReal :=
  fun i => head x w b (ix2 (i 1) (i 0))

/-- Row q of the features block at point t is row t · 1024 + q of the features. -/
theorem x_blk (c : Dev nD) (t : Fin cfg0.N) (q : Fin 1024) (k : Fin 512) :
    (iblk m c 0 t : S1024x512.Idx → EReal) (ix2 q k) = m ((c : Thread nD τ).loc main_arg0) (ix2 (sampleOf t q) k) := by
  show V m c main_arg0 (((cfg0.win 0).blk t).view.emb (ix2 q k)) = _
  rw [V_main_arg0]
  refine congrArg _ (funext fun a => Fin.ext ?_)
  have e := idx_facts t
  match a with
  | ⟨0, _⟩ => show win0_0.index t (0 : Fin 2) * 1024 + 1 * q.val = t.val * 1024 + q.val; omega
  | ⟨1, _⟩ => show win0_0.index t (1 : Fin 2) * 512 + 1 * k.val = k.val; omega

end Cert.KernelIdeal.HeadValue

end
-- ==== Proof.Blocks7.lean ====
/-
  The first head's output array after the run.

  The host hands the kernel the head's weights transposed (`V_wT0`) and its bias as a column (`V_b0`); both windows
  are whole at every point (`w0_blk`, `b0_blk`). Point t's block of the output array is columns t · 1024 … of it
  (`out7_emb`), and what the point writes back there is that block of the head's result transposed (`flushed7_eq`:
  the stored value is the softmax down the columns of the block's logits, which entry by entry are the head's). The
  sixteen blocks cover the array (`cover7`), so it ends holding the head's result transposed (`final7`).
-/
import proofs.«131366_g8564164788422_cont_9to1_m_151_18_alg».proof.Proof.Blocks

set_option maxRecDepth 16384

noncomputable section

namespace Cert.KernelIdeal.HeadValue

open Cert.KernelIdeal Cert.KernelIdeal.Gen Cert.SemHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

theorem V_wT0 (c : Dev nD) : (V m c main_call0_v0 : S1000x512.Idx → EReal)
    = transpose S1000x512 [1, 0] (m ((c : Thread nD τ).loc main_arg1)) transposes_S512x1000_S1000x512_1_0 := by
  show StableHlo.after hostOps0 (fun b => m (c, b)) (Proc.devRef .tc main_call0_v0) = _
  after_results
  rfl

theorem V_b0 (c : Dev nD) : (V m c main_call0_v1 : S1000x1.Idx → EReal)
    = shapeCast S1000x1 (m ((c : Thread nD τ).loc main_arg2)) shapeCasts_S1000_S1000x1 := by
  show StableHlo.after hostOps0 (fun b => m (c, b)) (Proc.devRef .tc main_call0_v1) = _
  after_results
  rfl

/-- The weights the body sees are the head's weights transposed, whole at every point. -/
theorem w0_blk (c : Dev nD) (t : Fin cfg0.N) (j : Fin 1000) (k : Fin 512) :
    (iblk m c 1 t : S1000x512.Idx → EReal) (ix2 j k) = m ((c : Thread nD τ).loc main_arg1) (ix2 k j) := by
  show V m c main_call0_v0 (((cfg0.win 1).blk t).view.emb (ix2 j k)) = _
  rw [V_wT0]
  refine Eq.trans (congrArg _ (funext fun a => Fin.ext ?_)) (transpose_ix2_apply _ _ j k)
  have e := idx_facts t
  match a with
  | ⟨0, _⟩ => show win0_1.index t (0 : Fin 2) * 1000 + 1 * j.val = j.val; omega
  | ⟨1, _⟩ => show win0_1.index t (1 : Fin 2) * 512 + 1 * k.val = k.val; omega

/-- The bias the body sees is the head's bias as a column, whole at every point. -/
theorem b0_blk (c : Dev nD) (t : Fin cfg0.N) (j : Fin 1000) :
    (iblk m c 2 t : S1000x1.Idx → EReal) (ix2 j (0 : Fin 1)) = m ((c : Thread nD τ).loc main_arg2) (ix1 j) := by
  show V m c main_call0_v1 (((cfg0.win 2).blk t).view.emb (ix2 j (0 : Fin 1))) = _
  rw [V_b0]
  refine Eq.trans (congrArg _ (funext fun a => Fin.ext ?_)) (shapeCast_a_a1_apply _ _ j)
  have e := idx_facts t
  match a with
  | ⟨0, _⟩ => show win0_2.index t (0 : Fin 2) * 1000 + 1 * j.val = j.val; omega
  | ⟨1, _⟩ => show win0_2.index t (1 : Fin 2) * 1 + 1 * 0 = 0; omega

/-- Entry (p, q) of the output's block at point t is entry (p, t · 1024 + q) of its array. -/
theorem out7_emb (t : Fin cfg0.N) (p : Fin 1000) (q : Fin 1024) :
    ((cfg0.win 7).blk t).view.emb (ix2 p q) = (ix2 p (sampleOf t q) : S1000x16384.Idx) := by
  funext a; apply Fin.ext
  have e := idx_facts t
  match a with
  | ⟨0, _⟩ => show win0_7.index t (0 : Fin 2) * 1000 + 1 * p.val = p.val; omega
  | ⟨1, _⟩ => show win0_7.index t (1 : Fin 2) * 1024 + 1 * q.val = t.val * 1024 + q.val; omega

/-- What point t writes back is block t of the head, transposed. -/
theorem flushed7_eq (c : Dev nD) (t : Fin cfg0.N) :
    (dats m 0 c).flushed 7 t = ((cfg0.win 7).blk t).view.read (Elt Ideal)
      (headT (m ((c : Thread nD τ).loc main_arg0)) (m ((c : Thread nD τ).loc main_arg1)) (m ((c : Thread nD τ).loc main_arg2))) := by
  show (cfg0.win 7).cut (grid0.coords t) ((dats m 0 c).after 7 t) = _
  rw [after0_7]
  unfold out0_7
  rw [View.canon_unit_zero hz]
  simp only [View.ld_unit_zero (S := S1024x512) hz, View.ld_unit_zero (S := S1000x512) hz, View.ld_unit_zero (S := S1000x1) hz]
  funext j
  obtain ⟨p, q, rfl⟩ : ∃ (p : Fin 1000) (q : Fin 1024), j = ix2 p q := ⟨j 0, j 1, eq_ix2 (n0 := 1000) (n1 := 1024) j⟩
  show k0_pay3 (iblk m c 0 t) (iblk m c 1 t) (iblk m c 2 t) (ix2 p q) = headT _ _ _ (((cfg0.win 7).blk t).view.emb (ix2 p q))
  rw [out7_emb]
  refine (congrFun (pay3_eq (iblk m c 0 t) (iblk m c 1 t) (iblk m c 2 t)) (ix2 p q)).trans ?_
  exact head_block_eq_head _ _ _ (iblk m c 0 t) (iblk m c 1 t) (iblk m c 2 t) (sampleOf t q) q (x_blk m c t q) (w0_blk m c t) (b0_blk m c t) p

/-- An index of the array is in point t's block iff each coordinate is in the block's range on its axis. -/
theorem mem_blk7 (t : Fin cfg0.N) (i : S1000x16384.Idx) :
    i ∈ ((cfg0.win 7).blk t).view.set ↔ ∀ a : Fin 2, win0_7.index t a * S1000x1024.size a ≤ (i a).val ∧ (i a).val < win0_7.index t a * S1000x1024.size a + S1000x1024.size a := by
  show i ∈ ((View.whole main_call0_v6_0).slice (win0_7.rect t)).set ↔ _
  rw [View.set_slice_whole, Rect.mem_set_unit]
  exact Iff.rfl

/-- Every entry of the array is in the block of the point its sample falls in. -/
theorem cover7 (i : S1000x16384.Idx) : ∃ t : Fin cfg0.N, (cfg0.win 7).flush t = true ∧ i ∈ ((cfg0.win 7).blk t).view.set := by
  have hi0 : (i 0).val < 1000 := (i 0).isLt
  have hi1 : (i 1).val < 16384 := (i 1).isLt
  have hN : (i 1).val / 1024 < grid0.N := by rw [N_0]; omega
  refine ⟨⟨(i 1).val / 1024, hN⟩, flush0_7 _, ?_⟩
  rw [mem_blk7]
  have e := idx_facts ⟨(i 1).val / 1024, hN⟩
  have ht : (⟨(i 1).val / 1024, hN⟩ : Fin cfg0.N).val = (i 1).val / 1024 := rfl
  intro a
  match a with
  | ⟨0, _⟩ => show win0_7.index ⟨(i 1).val / 1024, hN⟩ (0 : Fin 2) * 1000 ≤ (i 0).val ∧ (i 0).val < win0_7.index ⟨(i 1).val / 1024, hN⟩ (0 : Fin 2) * 1000 + 1000; omega
  | ⟨1, _⟩ => show win0_7.index ⟨(i 1).val / 1024, hN⟩ (1 : Fin 2) * 1024 ≤ (i 1).val ∧ (i 1).val < win0_7.index ⟨(i 1).val / 1024, hN⟩ (1 : Fin 2) * 1024 + 1024; omega

/-- The array after the run is the head, transposed. -/
theorem final7 (c : Dev nD) : (dats m 0 c).arrAt 7 cfg0.N
    = headT (m ((c : Thread nD τ).loc main_arg0)) (m ((c : Thread nD τ).loc main_arg1)) (m ((c : Thread nD τ).loc main_arg2)) :=
  (dats m 0 c).arrAt_eq_of_cover 7 _ (fun t _ => flushed7_eq m c t) cover7

end Cert.KernelIdeal.HeadValue

end
-- ==== Proof.Blocks8.lean ====
/-
  The second head's output array after the run.

  The host hands the kernel the head's weights transposed (`V_wT1`) and its bias as a column (`V_b1`); both windows
  are whole at every point (`w1_blk`, `b1_blk`). Point t's block of the output array is columns t · 1024 … of it
  (`out8_emb`), and what the point writes back there is that block of the head's result transposed (`flushed8_eq`:
  the stored value is the softmax down the columns of the block's logits, which entry by entry are the head's). The
  sixteen blocks cover the array (`cover8`), so it ends holding the head's result transposed (`final8`).
-/
import proofs.«131366_g8564164788422_cont_9to1_m_151_18_alg».proof.Proof.Blocks

set_option maxRecDepth 16384

noncomputable section

namespace Cert.KernelIdeal.HeadValue

open Cert.KernelIdeal Cert.KernelIdeal.Gen Cert.SemHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

theorem V_wT1 (c : Dev nD) : (V m c main_call0_v2 : S1000x512.Idx → EReal)
    = transpose S1000x512 [1, 0] (m ((c : Thread nD τ).loc main_arg3)) transposes_S512x1000_S1000x512_1_0 := by
  show StableHlo.after hostOps0 (fun b => m (c, b)) (Proc.devRef .tc main_call0_v2) = _
  after_results
  rfl

theorem V_b1 (c : Dev nD) : (V m c main_call0_v3 : S1000x1.Idx → EReal)
    = shapeCast S1000x1 (m ((c : Thread nD τ).loc main_arg4)) shapeCasts_S1000_S1000x1 := by
  show StableHlo.after hostOps0 (fun b => m (c, b)) (Proc.devRef .tc main_call0_v3) = _
  after_results
  rfl

/-- The weights the body sees are the head's weights transposed, whole at every point. -/
theorem w1_blk (c : Dev nD) (t : Fin cfg0.N) (j : Fin 1000) (k : Fin 512) :
    (iblk m c 3 t : S1000x512.Idx → EReal) (ix2 j k) = m ((c : Thread nD τ).loc main_arg3) (ix2 k j) := by
  show V m c main_call0_v2 (((cfg0.win 3).blk t).view.emb (ix2 j k)) = _
  rw [V_wT1]
  refine Eq.trans (congrArg _ (funext fun a => Fin.ext ?_)) (transpose_ix2_apply _ _ j k)
  have e := idx_facts t
  match a with
  | ⟨0, _⟩ => show win0_3.index t (0 : Fin 2) * 1000 + 1 * j.val = j.val; omega
  | ⟨1, _⟩ => show win0_3.index t (1 : Fin 2) * 512 + 1 * k.val = k.val; omega

/-- The bias the body sees is the head's bias as a column, whole at every point. -/
theorem b1_blk (c : Dev nD) (t : Fin cfg0.N) (j : Fin 1000) :
    (iblk m c 4 t : S1000x1.Idx → EReal) (ix2 j (0 : Fin 1)) = m ((c : Thread nD τ).loc main_arg4) (ix1 j) := by
  show V m c main_call0_v3 (((cfg0.win 4).blk t).view.emb (ix2 j (0 : Fin 1))) = _
  rw [V_b1]
  refine Eq.trans (congrArg _ (funext fun a => Fin.ext ?_)) (shapeCast_a_a1_apply _ _ j)
  have e := idx_facts t
  match a with
  | ⟨0, _⟩ => show win0_4.index t (0 : Fin 2) * 1000 + 1 * j.val = j.val; omega
  | ⟨1, _⟩ => show win0_4.index t (1 : Fin 2) * 1 + 1 * 0 = 0; omega

/-- Entry (p, q) of the output's block at point t is entry (p, t · 1024 + q) of its array. -/
theorem out8_emb (t : Fin cfg0.N) (p : Fin 1000) (q : Fin 1024) :
    ((cfg0.win 8).blk t).view.emb (ix2 p q) = (ix2 p (sampleOf t q) : S1000x16384.Idx) := by
  funext a; apply Fin.ext
  have e := idx_facts t
  match a with
  | ⟨0, _⟩ => show win0_8.index t (0 : Fin 2) * 1000 + 1 * p.val = p.val; omega
  | ⟨1, _⟩ => show win0_8.index t (1 : Fin 2) * 1024 + 1 * q.val = t.val * 1024 + q.val; omega

/-- What point t writes back is block t of the head, transposed. -/
theorem flushed8_eq (c : Dev nD) (t : Fin cfg0.N) :
    (dats m 0 c).flushed 8 t = ((cfg0.win 8).blk t).view.read (Elt Ideal)
      (headT (m ((c : Thread nD τ).loc main_arg0)) (m ((c : Thread nD τ).loc main_arg3)) (m ((c : Thread nD τ).loc main_arg4))) := by
  show (cfg0.win 8).cut (grid0.coords t) ((dats m 0 c).after 8 t) = _
  rw [after0_8]
  unfold out0_8
  rw [View.canon_unit_zero hz]
  simp only [View.ld_unit_zero (S := S1024x512) hz, View.ld_unit_zero (S := S1000x512) hz, View.ld_unit_zero (S := S1000x1) hz]
  funext j
  obtain ⟨p, q, rfl⟩ : ∃ (p : Fin 1000) (q : Fin 1024), j = ix2 p q := ⟨j 0, j 1, eq_ix2 (n0 := 1000) (n1 := 1024) j⟩
  show k0_pay4 (iblk m c 0 t) (iblk m c 3 t) (iblk m c 4 t) (ix2 p q) = headT _ _ _ (((cfg0.win 8).blk t).view.emb (ix2 p q))
  rw [out8_emb]
  refine (congrFun (pay4_eq (iblk m c 0 t) (iblk m c 3 t) (iblk m c 4 t)) (ix2 p q)).trans ?_
  exact head_block_eq_head _ _ _ (iblk m c 0 t) (iblk m c 3 t) (iblk m c 4 t) (sampleOf t q) q (x_blk m c t q) (w1_blk m c t) (b1_blk m c t) p

/-- An index of the array is in point t's block iff each coordinate is in the block's range on its axis. -/
theorem mem_blk8 (t : Fin cfg0.N) (i : S1000x16384.Idx) :
    i ∈ ((cfg0.win 8).blk t).view.set ↔ ∀ a : Fin 2, win0_8.index t a * S1000x1024.size a ≤ (i a).val ∧ (i a).val < win0_8.index t a * S1000x1024.size a + S1000x1024.size a := by
  show i ∈ ((View.whole main_call0_v6_1).slice (win0_8.rect t)).set ↔ _
  rw [View.set_slice_whole, Rect.mem_set_unit]
  exact Iff.rfl

/-- Every entry of the array is in the block of the point its sample falls in. -/
theorem cover8 (i : S1000x16384.Idx) : ∃ t : Fin cfg0.N, (cfg0.win 8).flush t = true ∧ i ∈ ((cfg0.win 8).blk t).view.set := by
  have hi0 : (i 0).val < 1000 := (i 0).isLt
  have hi1 : (i 1).val < 16384 := (i 1).isLt
  have hN : (i 1).val / 1024 < grid0.N := by rw [N_0]; omega
  refine ⟨⟨(i 1).val / 1024, hN⟩, flush0_8 _, ?_⟩
  rw [mem_blk8]
  have e := idx_facts ⟨(i 1).val / 1024, hN⟩
  have ht : (⟨(i 1).val / 1024, hN⟩ : Fin cfg0.N).val = (i 1).val / 1024 := rfl
  intro a
  match a with
  | ⟨0, _⟩ => show win0_8.index ⟨(i 1).val / 1024, hN⟩ (0 : Fin 2) * 1000 ≤ (i 0).val ∧ (i 0).val < win0_8.index ⟨(i 1).val / 1024, hN⟩ (0 : Fin 2) * 1000 + 1000; omega
  | ⟨1, _⟩ => show win0_8.index ⟨(i 1).val / 1024, hN⟩ (1 : Fin 2) * 1024 ≤ (i 1).val ∧ (i 1).val < win0_8.index ⟨(i 1).val / 1024, hN⟩ (1 : Fin 2) * 1024 + 1024; omega

/-- The array after the run is the head, transposed. -/
theorem final8 (c : Dev nD) : (dats m 0 c).arrAt 8 cfg0.N
    = headT (m ((c : Thread nD τ).loc main_arg0)) (m ((c : Thread nD τ).loc main_arg3)) (m ((c : Thread nD τ).loc main_arg4)) :=
  (dats m 0 c).arrAt_eq_of_cover 8 _ (fun t _ => flushed8_eq m c t) cover8

end Cert.KernelIdeal.HeadValue

end
-- ==== Proof.Blocks9.lean ====
/-
  The third head's output array after the run.

  The host hands the kernel the head's weights transposed (`V_wT2`) and its bias as a column (`V_b2`); both windows
  are whole at every point (`w2_blk`, `b2_blk`). Point t's block of the output array is columns t · 1024 … of it
  (`out9_emb`), and what the point writes back there is that block of the head's result transposed (`flushed9_eq`:
  the stored value is the softmax down the columns of the block's logits, which entry by entry are the head's). The
  sixteen blocks cover the array (`cover9`), so it ends holding the head's result transposed (`final9`).
-/
import proofs.«131366_g8564164788422_cont_9to1_m_151_18_alg».proof.Proof.Blocks

set_option maxRecDepth 16384

noncomputable section

namespace Cert.KernelIdeal.HeadValue

open Cert.KernelIdeal Cert.KernelIdeal.Gen Cert.SemHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

theorem V_wT2 (c : Dev nD) : (V m c main_call0_v4 : S1000x512.Idx → EReal)
    = transpose S1000x512 [1, 0] (m ((c : Thread nD τ).loc main_arg5)) transposes_S512x1000_S1000x512_1_0 := by
  show StableHlo.after hostOps0 (fun b => m (c, b)) (Proc.devRef .tc main_call0_v4) = _
  after_results
  rfl

theorem V_b2 (c : Dev nD) : (V m c main_call0_v5 : S1000x1.Idx → EReal)
    = shapeCast S1000x1 (m ((c : Thread nD τ).loc main_arg6)) shapeCasts_S1000_S1000x1 := by
  show StableHlo.after hostOps0 (fun b => m (c, b)) (Proc.devRef .tc main_call0_v5) = _
  after_results
  rfl

/-- The weights the body sees are the head's weights transposed, whole at every point. -/
theorem w2_blk (c : Dev nD) (t : Fin cfg0.N) (j : Fin 1000) (k : Fin 512) :
    (iblk m c 5 t : S1000x512.Idx → EReal) (ix2 j k) = m ((c : Thread nD τ).loc main_arg5) (ix2 k j) := by
  show V m c main_call0_v4 (((cfg0.win 5).blk t).view.emb (ix2 j k)) = _
  rw [V_wT2]
  refine Eq.trans (congrArg _ (funext fun a => Fin.ext ?_)) (transpose_ix2_apply _ _ j k)
  have e := idx_facts t
  match a with
  | ⟨0, _⟩ => show win0_5.index t (0 : Fin 2) * 1000 + 1 * j.val = j.val; omega
  | ⟨1, _⟩ => show win0_5.index t (1 : Fin 2) * 512 + 1 * k.val = k.val; omega

/-- The bias the body sees is the head's bias as a column, whole at every point. -/
theorem b2_blk (c : Dev nD) (t : Fin cfg0.N) (j : Fin 1000) :
    (iblk m c 6 t : S1000x1.Idx → EReal) (ix2 j (0 : Fin 1)) = m ((c : Thread nD τ).loc main_arg6) (ix1 j) := by
  show V m c main_call0_v5 (((cfg0.win 6).blk t).view.emb (ix2 j (0 : Fin 1))) = _
  rw [V_b2]
  refine Eq.trans (congrArg _ (funext fun a => Fin.ext ?_)) (shapeCast_a_a1_apply _ _ j)
  have e := idx_facts t
  match a with
  | ⟨0, _⟩ => show win0_6.index t (0 : Fin 2) * 1000 + 1 * j.val = j.val; omega
  | ⟨1, _⟩ => show win0_6.index t (1 : Fin 2) * 1 + 1 * 0 = 0; omega

/-- Entry (p, q) of the output's block at point t is entry (p, t · 1024 + q) of its array. -/
theorem out9_emb (t : Fin cfg0.N) (p : Fin 1000) (q : Fin 1024) :
    ((cfg0.win 9).blk t).view.emb (ix2 p q) = (ix2 p (sampleOf t q) : S1000x16384.Idx) := by
  funext a; apply Fin.ext
  have e := idx_facts t
  match a with
  | ⟨0, _⟩ => show win0_9.index t (0 : Fin 2) * 1000 + 1 * p.val = p.val; omega
  | ⟨1, _⟩ => show win0_9.index t (1 : Fin 2) * 1024 + 1 * q.val = t.val * 1024 + q.val; omega

/-- What point t writes back is block t of the head, transposed. -/
theorem flushed9_eq (c : Dev nD) (t : Fin cfg0.N) :
    (dats m 0 c).flushed 9 t = ((cfg0.win 9).blk t).view.read (Elt Ideal)
      (headT (m ((c : Thread nD τ).loc main_arg0)) (m ((c : Thread nD τ).loc main_arg5)) (m ((c : Thread nD τ).loc main_arg6))) := by
  show (cfg0.win 9).cut (grid0.coords t) ((dats m 0 c).after 9 t) = _
  rw [after0_9]
  unfold out0_9
  rw [View.canon_unit_zero hz]
  simp only [View.ld_unit_zero (S := S1024x512) hz, View.ld_unit_zero (S := S1000x512) hz, View.ld_unit_zero (S := S1000x1) hz]
  funext j
  obtain ⟨p, q, rfl⟩ : ∃ (p : Fin 1000) (q : Fin 1024), j = ix2 p q := ⟨j 0, j 1, eq_ix2 (n0 := 1000) (n1 := 1024) j⟩
  show k0_pay1 (k0_pay2 (iblk m c 0 t)) (iblk m c 5 t) (iblk m c 6 t) (ix2 p q) = headT _ _ _ (((cfg0.win 9).blk t).view.emb (ix2 p q))
  rw [out9_emb]
  refine (congrFun (pay1_eq (k0_pay2 (iblk m c 0 t)) (iblk m c 5 t) (iblk m c 6 t)) (ix2 p q)).trans ?_
  exact head_block_eq_head _ _ _ (iblk m c 0 t) (iblk m c 5 t) (iblk m c 6 t) (sampleOf t q) q (x_blk m c t q) (w2_blk m c t) (b2_blk m c t) p

/-- An index of the array is in point t's block iff each coordinate is in the block's range on its axis. -/
theorem mem_blk9 (t : Fin cfg0.N) (i : S1000x16384.Idx) :
    i ∈ ((cfg0.win 9).blk t).view.set ↔ ∀ a : Fin 2, win0_9.index t a * S1000x1024.size a ≤ (i a).val ∧ (i a).val < win0_9.index t a * S1000x1024.size a + S1000x1024.size a := by
  show i ∈ ((View.whole main_call0_v6_2).slice (win0_9.rect t)).set ↔ _
  rw [View.set_slice_whole, Rect.mem_set_unit]
  exact Iff.rfl

/-- Every entry of the array is in the block of the point its sample falls in. -/
theorem cover9 (i : S1000x16384.Idx) : ∃ t : Fin cfg0.N, (cfg0.win 9).flush t = true ∧ i ∈ ((cfg0.win 9).blk t).view.set := by
  have hi0 : (i 0).val < 1000 := (i 0).isLt
  have hi1 : (i 1).val < 16384 := (i 1).isLt
  have hN : (i 1).val / 1024 < grid0.N := by rw [N_0]; omega
  refine ⟨⟨(i 1).val / 1024, hN⟩, flush0_9 _, ?_⟩
  rw [mem_blk9]
  have e := idx_facts ⟨(i 1).val / 1024, hN⟩
  have ht : (⟨(i 1).val / 1024, hN⟩ : Fin cfg0.N).val = (i 1).val / 1024 := rfl
  intro a
  match a with
  | ⟨0, _⟩ => show win0_9.index ⟨(i 1).val / 1024, hN⟩ (0 : Fin 2) * 1000 ≤ (i 0).val ∧ (i 0).val < win0_9.index ⟨(i 1).val / 1024, hN⟩ (0 : Fin 2) * 1000 + 1000; omega
  | ⟨1, _⟩ => show win0_9.index ⟨(i 1).val / 1024, hN⟩ (1 : Fin 2) * 1024 ≤ (i 1).val ∧ (i 1).val < win0_9.index ⟨(i 1).val / 1024, hN⟩ (1 : Fin 2) * 1024 + 1024; omega

/-- The array after the run is the head, transposed. -/
theorem final9 (c : Dev nD) : (dats m 0 c).arrAt 9 cfg0.N
    = headT (m ((c : Thread nD τ).loc main_arg0)) (m ((c : Thread nD τ).loc main_arg5)) (m ((c : Thread nD τ).loc main_arg6)) :=
  (dats m 0 c).arrAt_eq_of_cover 9 _ (fun t _ => flushed9_eq m c t) cover9

end Cert.KernelIdeal.HeadValue

end
-- ==== Proof.Results.lean ====
/-
  The kernel program's three results.

  After the region the host transposes each head's output array (clusters × samples) into a result (samples ×
  clusters). The array holds the head's result with its axes exchanged, and exchanging them again gives the head's
  result itself (`transpose_headT`); so each of the program's results is its head of the argument arrays
  (`result0`, `result1`, `result2`), and with the generated frame run this is the program's run with its three
  results named and its arguments unchanged (`run_heads`).
-/
import proofs.«131366_g8564164788422_cont_9to1_m_151_18_alg».proof.Proof.Blocks7
import proofs.«131366_g8564164788422_cont_9to1_m_151_18_alg».proof.Proof.Blocks8
import proofs.«131366_g8564164788422_cont_9to1_m_151_18_alg».proof.Proof.Blocks9

set_option maxRecDepth 16384

noncomputable section

namespace Cert.KernelIdeal.HeadValue

open Cert.KernelIdeal Cert.KernelIdeal.Gen Cert.SemHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- A head's result with its axes exchanged, and exchanged again, is the head's result. -/
theorem transpose_headT (x : S16384x512.Idx → EReal) (w : S512x1000.Idx → EReal) (b : S1000.Idx → EReal)
    (h : S1000x16384.Transposes [1, 0] S16384x1000) :
    transpose S16384x1000 [1, 0] (headT x w b) h = head x w b := by
  funext i
  obtain ⟨r, j, rfl⟩ : ∃ (r : Fin 16384) (j : Fin 1000), i = ix2 r j := ⟨i 0, i 1, eq_ix2 i⟩
  rw [transpose_ix2_apply]
  rfl

/-- The first result: the host's transpose of the first head's output array. -/
theorem result0 (c : Dev nD) :
    Pipeline.afterTail₀ cfgs (dats m) 0 (V0 m) [hostOps1] c main_v0_0
      = head (m ((c : Thread nD τ).loc main_arg0)) (m ((c : Thread nD τ).loc main_arg1)) (m ((c : Thread nD τ).loc main_arg2)) := by
  unfold Pipeline.afterTail₀
  show StableHlo.after hostOps1 _ (Proc.devRef .tc main_v0_0) = _
  after_results
  show transpose S16384x1000 [1, 0] (Pipeline.withArrays spec0 c (V0 m c) (fun w => (dats m 0 c).arrAt w cfg0.N)
    (Proc.devRef .tc (Pipeline.arrRef spec0 7))) transposes_S1000x16384_S16384x1000_1_0 = _
  rw [Pipeline.withArrays_arr spec0 launch0.win.arr_inj c _ _ 7, final7]
  exact transpose_headT _ _ _ _

/-- The second result: the host's transpose of the second head's output array. -/
theorem result1 (c : Dev nD) :
    Pipeline.afterTail₀ cfgs (dats m) 0 (V0 m) [hostOps1] c main_v0_1
      = head (m ((c : Thread nD τ).loc main_arg0)) (m ((c : Thread nD τ).loc main_arg3)) (m ((c : Thread nD τ).loc main_arg4)) := by
  unfold Pipeline.afterTail₀
  show StableHlo.after hostOps1 _ (Proc.devRef .tc main_v0_1) = _
  after_results
  show transpose S16384x1000 [1, 0] (Pipeline.withArrays spec0 c (V0 m c) (fun w => (dats m 0 c).arrAt w cfg0.N)
    (Proc.devRef .tc (Pipeline.arrRef spec0 8))) transposes_S1000x16384_S16384x1000_1_0 = _
  rw [Pipeline.withArrays_arr spec0 launch0.win.arr_inj c _ _ 8, final8]
  exact transpose_headT _ _ _ _

/-- The third result: the host's transpose of the third head's output array. -/
theorem result2 (c : Dev nD) :
    Pipeline.afterTail₀ cfgs (dats m) 0 (V0 m) [hostOps1] c main_v0_2
      = head (m ((c : Thread nD τ).loc main_arg0)) (m ((c : Thread nD τ).loc main_arg5)) (m ((c : Thread nD τ).loc main_arg6)) := by
  unfold Pipeline.afterTail₀
  show StableHlo.after hostOps1 _ (Proc.devRef .tc main_v0_2) = _
  after_results
  show transpose S16384x1000 [1, 0] (Pipeline.withArrays spec0 c (V0 m c) (fun w => (dats m 0 c).arrAt w cfg0.N)
    (Proc.devRef .tc (Pipeline.arrRef spec0 9))) transposes_S1000x16384_S16384x1000_1_0 = _
  rw [Pipeline.withArrays_arr spec0 launch0.win.arr_inj c _ _ 9, final9]
  exact transpose_headT _ _ _ _

/-- Every weakly fair execution of the kernel program terminates with each result at its head of the argument arrays,
    and the arguments unchanged: the generated frame run, its post read at the results and at the arguments. -/
theorem run_heads : θ_run defs (onTc (τ := τ) (main (F := Ideal))) ⟨m, fun _ => 0, ρ⟩ (fun r => ∀ c : Dev nD,
      r.2.mem ((c.tc : Thread nD τ).loc main_v0_0) = head (m ((c.tc : Thread nD τ).loc main_arg0)) (m ((c.tc : Thread nD τ).loc main_arg1)) (m ((c.tc : Thread nD τ).loc main_arg2))
      ∧ r.2.mem ((c.tc : Thread nD τ).loc main_v0_1) = head (m ((c.tc : Thread nD τ).loc main_arg0)) (m ((c.tc : Thread nD τ).loc main_arg3)) (m ((c.tc : Thread nD τ).loc main_arg4))
      ∧ r.2.mem ((c.tc : Thread nD τ).loc main_v0_2) = head (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0_0 (Pipeline.mem_restRefs_of main_v0_0 (by decide) (by decide))).trans (result0 m c),
      ((h c).2 main_v0_1 (Pipeline.mem_restRefs_of main_v0_1 (by decide) (by decide))).trans (result1 m c),
      ((h c).2 main_v0_2 (Pipeline.mem_restRefs_of main_v0_2 (by decide) (by decide))).trans (result2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.HeadValue

end
-- ==== Proof.lean ====
/-
  Three softmax classifier heads over one feature tensor: the kernel against its reference.

  Each head is softmax (features · W + b) along the 1000 clusters, for 16384 samples of 512 features. The reference
  computes it on the host, head after head. The kernel computes all three in one launch over blocks of 1024 samples,
  each block transposed (clusters × samples): the logits as Wᵀ · xᵀ plus the bias column, the maximum and the sum of
  exponentials down each column, the quotient; the host transposes the three arrays back. Over the extended reals
  narrowing to the matrix unit's input format changes nothing, a matrix product into zero is the plain sum of products,
  and a reduction is a sum or a maximum in any order, so both programs compute, entry (r, j) of head h,

      exp (l j − M) / ∑ⱼ' exp (l j' − M),   l j = ∑ₖ x[r, k] · Wₕ[k, j] + bₕ[j],   M = maxⱼ' l j'  (from −∞),

  the kernel with the factors of each product in the other order (the one law used: multiplication commutes). No
  distributive law is used, so the inputs' finiteness is not needed.

  The three frames are the generated ones (the reference's is its generated run with the results dropped); the ideal
  pass rewrote nothing, so `preserves` is trivial; `algebraic` puts the kernel program's run with its results
  named (`run_heads`) beside the reference's generated run read head by head (`ref_head0`, `ref_head1`,
  `ref_head2`): both end at `head` of arguments that agree.
-/
import proofs.«131366_g8564164788422_cont_9to1_m_151_18_alg».proof.Defs
import proofs.«131366_g8564164788422_cont_9to1_m_151_18_alg».proof.Proof.Gen.Kernel
import proofs.«131366_g8564164788422_cont_9to1_m_151_18_alg».proof.Proof.Gen.Kernel.Skeleton
import proofs.«131366_g8564164788422_cont_9to1_m_151_18_alg».proof.Proof.Gen.Kernel.Launch
import proofs.«131366_g8564164788422_cont_9to1_m_151_18_alg».proof.Proof.Gen.Kernel.Points
import proofs.«131366_g8564164788422_cont_9to1_m_151_18_alg».proof.Proof.Gen.Kernel.Frame
import proofs.«131366_g8564164788422_cont_9to1_m_151_18_alg».proof.Proof.Gen.KernelIdeal
import proofs.«131366_g8564164788422_cont_9to1_m_151_18_alg».proof.Proof.Gen.KernelIdeal.Skeleton
import proofs.«131366_g8564164788422_cont_9to1_m_151_18_alg».proof.Proof.Gen.KernelIdeal.Launch
import proofs.«131366_g8564164788422_cont_9to1_m_151_18_alg».proof.Proof.Gen.KernelIdeal.Points
import proofs.«131366_g8564164788422_cont_9to1_m_151_18_alg».proof.Proof.Gen.KernelIdeal.Frame
import proofs.«131366_g8564164788422_cont_9to1_m_151_18_alg».proof.Proof.Gen.ReferenceIdeal
import proofs.«131366_g8564164788422_cont_9to1_m_151_18_alg».proof.Proof.Gen.ReferenceIdeal.Run
import proofs.«131366_g8564164788422_cont_9to1_m_151_18_alg».proof.Proof.Gen.ReferenceIdeal.Read
import proofs.«131366_g8564164788422_cont_9to1_m_151_18_alg».proof.Proof.Gen.Pre_finite_inputs
import proofs.«131366_g8564164788422_cont_9to1_m_151_18_alg».proof.Proof.RefHead
import proofs.«131366_g8564164788422_cont_9to1_m_151_18_alg».proof.Proof.Results
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with each result at `head` of the features and of
    that head's weights and bias. -/
theorem algebraic : Cert.algebraic_KernelIdeal_ReferenceIdeal := by
  intro m ρ m' ρ' _ hagree
  refine ⟨_, _, _, Cert.KernelIdeal.HeadValue.run_heads m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v14_eq, Cert.ReferenceIdeal.HeadValue.ref_head0, (hagree c).1, (hagree c).2.1, (hagree c).2.2.1]
  · rw [Cert.ReferenceIdeal.Read.val_main_v29_eq, Cert.ReferenceIdeal.HeadValue.ref_head1, (hagree c).1, (hagree c).2.2.2.1, (hagree c).2.2.2.2.1]
  · rw [Cert.ReferenceIdeal.Read.val_main_v44_eq, Cert.ReferenceIdeal.HeadValue.ref_head2, (hagree c).1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
